-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1x1024 .f32) (main_arg3 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S16384x1024 : Shape := ⟨2, ![16384, 1024]⟩
abbrev S1x1024 : Shape := ⟨2, ![1, 1024]⟩
abbrev S1x16384 : Shape := ⟨2, ![1, 16384]⟩
abbrev S1024x1024 : Shape := ⟨2, ![1024, 1024]⟩
abbrev S_ : Shape := ⟨0, ![]⟩
abbrev S1 : Shape := ⟨1, ![1]⟩
abbrev S1x1 : Shape := ⟨2, ![1, 1]⟩

abbrev nBuf : Space → Nat
  | .hbm => 34
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x16384, .f32⟩
  | .hbm, ⟨5, _⟩ => ⟨S1x16384, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S1x16384, .f32⟩
  | .hbm, ⟨13, _⟩ => ⟨S1x16384, .f32⟩
  | .hbm, ⟨14, _⟩ => ⟨S1x16384, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S1x16384, .f32⟩
  | .hbm, ⟨19, _⟩ => ⟨S1x16384, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x16384, .f32⟩
  | .hbm, ⟨27, _⟩ => ⟨S1x16384, .f32⟩
  | .hbm, ⟨28, _⟩ => ⟨S1x16384, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S1x16384, .f32⟩
  | .hbm, ⟨33, _⟩ => ⟨S1x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  reducesTo_S1x16384_S1_d1 : S1x16384.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x16384_0_1 : S1x1.BroadcastsInDim S1x16384 (![0, 1] : Fin 2 → Fin S1x16384.rank)
  dot_S1x1024_S1024x1024_S1x1024_1_1_0_0_n_n_wf : DotDims.WF S1x1024 S1024x1024 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x16384.size a
  hwx0_4 : ∀ i : grid0.Coords, EltTy.bits .f32 = 32 ∨ (Rect.block (s := S1x16384) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x16384.size a
  hwx0_5 : ∀ i : grid0.Coords, EltTy.bits .f32 = 32 ∨ (Rect.block (s := S1x16384) S1x1024.size (cc0_transform_5 i) (hinb0_5 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1x1024 : Shape := ⟨2, ![1, 1024]⟩
abbrev S1x16384 : Shape := ⟨2, ![1, 16384]⟩
abbrev S_ : Shape := ⟨0, ![]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x16384, .f32⟩
  | .hbm, ⟨5, _⟩ => ⟨S1x16384, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S1x16384, .f32⟩
  | .hbm, ⟨13, _⟩ => ⟨S1x16384, .f32⟩
  | .hbm, ⟨14, _⟩ => ⟨S1x16384, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S1x16384, .f32⟩
  | .hbm, ⟨19, _⟩ => ⟨S1x16384, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x16384, .f32⟩
  | .hbm, ⟨27, _⟩ => ⟨S1x16384, .f32⟩
  | .hbm, ⟨28, _⟩ => ⟨S1x16384, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S1x16384, .f32⟩
  | .hbm, ⟨33, _⟩ => ⟨S1x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  reducesTo_S1x16384_S1_d1 : S1x16384.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x16384_0_1 : S1x1.BroadcastsInDim S1x16384 (![0, 1] : Fin 2 → Fin S1x16384.rank)
  dot_S1x1024_S16384x1024_S1x16384_1_1_0_0_n_n_wf : DotDims.WF S1x1024 S16384x1024 S1x16384 [1] [1] [0] [0] [] []

variable [Facts₀]

def dot_S1x1024_S16384x1024_S1x16384_1_1_0_0_n_n : DotDims S1x1024 S16384x1024 S1x16384 where
  lhsContracting := [1]
  rhsContracting := [1]
  lhsNonContracting := [0]
  rhsNonContracting := [0]
  lhsBatch := []
  rhsBatch := []
  wf := dot_S1x1024_S16384x1024_S1x16384_1_1_0_0_n_n_wf

class Facts : Prop extends Facts₀ where

variable [Facts]
-- ==== Proof.LibRowsDot.lean ====
/-
  A matrix product whose BOTH operands are contracted on their last axis — an M×K array by an N×K array,
  the (a, b) entry pairing row a of the first with row b of the second — read at an index, at the ideal values:
  it is the finite sum over the shared column c of first(a, c) · second(b, c).

  The dimension numbers are lhs contracting [1], rhs contracting [1], lhs free [0], rhs free [0], no batch axis.
  Both spellings of the product are read: the host's `dot_general`, and the vector unit's matmul accumulating
  into the f32 zero splat (where 0 + s = s holds for every extended real s, so nothing is asked of the entries).
  For any M, K, N and any element formats of the operands (a format is the extended reals at the ideal values).
-/
import Idealize.ShloMosaic.Lib.ValueIdx
import Idealize.ShloMosaic.PureOps.Ideal.Laws

noncomputable section

open scoped BigOperators

namespace Cert.Lib.RowsDot

open Idealize.ShloMosaic Idealize.ShloMosaic.ValueIdx

variable {M K N : Nat} {φ₁ φ₂ : FTy}

/-- The dimension numbers "rows of the first against rows of the second", over any well-formedness witness. -/
abbrev dims (w : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], w⟩

/-- At result entry (a, b) and contraction position c the first operand is read at (a, c). -/
theorem lhsIdx_eq (w : DotDims.WF ⟨2, ![M, K]⟩ ⟨2, ![N, K]⟩ ⟨2, ![M, N]⟩ [1] [1] [0] [0] [] [])
    (a : Fin M) (b : Fin N) (c : Fin K) :
    (dims w).lhsIdx (ix2 a b) ((contrEquiv1 (dims w) K rfl rfl).symm c) = ix2 a c := by
  have hc := contrEquiv1_symm_val (dims w) K rfl rfl c
  funext ax; apply Fin.ext
  match ax with
  | ⟨0, _⟩ => simp [DotDims.lhsIdx]; rfl
  | ⟨1, _⟩ => simp [DotDims.lhsIdx]; exact hc

/-- At result entry (a, b) and contraction position c the second operand is read at (b, c). -/
theorem rhsIdx_eq (w : DotDims.WF ⟨2, ![M, K]⟩ ⟨2, ![N, K]⟩ ⟨2, ![M, N]⟩ [1] [1] [0] [0] [] [])
    (a : Fin M) (b : Fin N) (c : Fin K) :
    (dims w).rhsIdx (ix2 a b) ((contrEquiv1 (dims w) K rfl rfl).symm c) = ix2 b c := by
  have hc := contrEquiv1_symm_val (dims w) K rfl rfl c
  funext ax; apply Fin.ext
  match ax with
  | ⟨0, _⟩ => simp [DotDims.rhsIdx]; rfl
  | ⟨1, _⟩ => simp [DotDims.rhsIdx]; exact hc

/-- The host's `dot_general` with these dimension numbers, entry (a, b): Σ_c A(a, c) · B(b, c). -/
theorem dotGeneral_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (dims w) prec A B (ix2 a b) = ∑ c : Fin K, A (ix2 a c) * B (ix2 b c) := by
  show FloatOps.dotGeneral _ prec _ A B (ix2 a b) = _
  rw [Ideal.dotGeneral_apply, ← Equiv.sum_comp (contrEquiv1 (dims w) K rfl rfl).symm]
  refine Finset.sum_congr rfl fun c _ => ?_
  rw [lhsIdx_eq w a b c, rhsIdx_eq w a b c]

/-- The vector unit's matmul with these dimension numbers into the zero accumulator, entry (a, b):
    Σ_c A(a, c) · B(b, c). -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    matmul (dims w) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply, ← Equiv.sum_comp (contrEquiv1 (dims w) K rfl rfl).symm]
  refine Finset.sum_congr rfl fun c _ => ?_
  rw [lhsIdx_eq w a b c, rhsIdx_eq w a b c]

end Cert.Lib.RowsDot

end
-- ==== Proof.BlockValue.lean ====
/-
  One grid point's arithmetic, read at an entry, at the ideal values.

  The body loads a 1024×1024 block of a table and the 1×1024 weights, changes both to bf16 (the identity on
  extended reals) and multiplies weights by block with both operands contracted on their last axis, into a zero
  accumulator. So entry (0, r) of what it stores is the dot product of the weights' row with row r of the block:
  Σ_{d < 1024} w(0, d) · block(r, d). Both stores of the body have this form, one per table.
-/
import proofs.«117682_j15719580304442_1_alg».proof.Proof.Gen.KernelIdeal.Skeleton
import proofs.«117682_j15719580304442_1_alg».proof.Proof.LibRowsDot
import Idealize.ShloMosaic.Lib.ValueIdx

noncomputable section

open scoped BigOperators

namespace Cert.KernelIdeal.BlockValue

open Cert.KernelIdeal Cert.KernelIdeal.Gen Idealize.ShloMosaic Idealize.ShloMosaic.ValueIdx

/-- The first store's value at entry (a, r): the weights' row against row r of the first table's block. -/
theorem pay1_apply (blk : Vec Ideal S1024x1024 .f32) (w : Vec Ideal S1x1024 .f32) (a : Fin 1) (r : Fin 1024) :
    k0_pay1 (F := Ideal) blk w (ix2 a r) = ∑ d : Fin 1024, w (ix2 a d) * blk (ix2 r d) := by
  unfold k0_pay1
  exact Cert.Lib.RowsDot.matmul_zero_apply (M := 1) (K := 1024) (N := 1024)
    Facts₀.dot_S1x1024_S1024x1024_S1x1024_1_1_0_0_n_n_wf none
    (truncf (F := Ideal) .bf16 w Facts₀.bitsLt_bf16_f32) (truncf (F := Ideal) .bf16 blk Facts₀.bitsLt_bf16_f32) a r

/-- The second store's value at entry (a, r): the same, of the second table's block and the second weights. -/
theorem pay2_apply (blk : Vec Ideal S1024x1024 .f32) (w : Vec Ideal S1x1024 .f32) (a : Fin 1) (r : Fin 1024) :
    k0_pay2 (F := Ideal) blk w (ix2 a r) = ∑ d : Fin 1024, w (ix2 a d) * blk (ix2 r d) := by
  unfold k0_pay2
  exact Cert.Lib.RowsDot.matmul_zero_apply (M := 1) (K := 1024) (N := 1024)
    Facts₀.dot_S1x1024_S1024x1024_S1x1024_1_1_0_0_n_n_wf none
    (truncf (F := Ideal) .bf16 w Facts₀.bitsLt_bf16_f32) (truncf (F := Ideal) .bf16 blk Facts₀.bitsLt_bf16_f32) a r

end Cert.KernelIdeal.BlockValue

end
-- ==== Proof.Spec.lean ====
/-
  What both programs compute, written once over literal shapes at the ideal values.

  `rowDots w g` is the 1×16384 row whose entry s is the dot product of the single row of `w` (1×1024) with
  row s of `g` (16384×1024):  p(0, s) = Σ_{d < 1024} w(0, d) · g(s, d).

  `softmaxRow p` is the softmax of a 1×16384 row along its long axis exactly as both programs spell it on the
  host: m = max(-∞, max_s p(0, s)); e(0, s) = exp(p(0, s) − m); result(0, s) = e(0, s) / Σ_s e(0, s).
  It is never opened: both programs apply this same chain of operations to the same row, so the two results
  are equal as soon as the rows are.
-/
import Idealize.ShloMosaic.PureOps.Ideal
import Idealize.ShloMosaic.Lib.ValueIdx

noncomputable section

open scoped BigOperators

namespace Cert.Spec

open Idealize.ShloMosaic Idealize.ShloMosaic.ValueIdx

/-- The weights' shape: one row of 1024. -/
abbrev SW : Shape := ⟨2, ![1, 1024]⟩
/-- The table's shape: 16384 rows of 1024. -/
abbrev SG : Shape := ⟨2, ![16384, 1024]⟩
/-- The scores' shape: one row of 16384. -/
abbrev SP : Shape := ⟨2, ![1, 16384]⟩
abbrev S0 : Shape := ⟨0, ![]⟩
abbrev S1 : Shape := ⟨1, ![1]⟩
abbrev S11 : Shape := ⟨2, ![1, 1]⟩

/-- Entry s of the row: the dot product of the weights' row with row s of the table. -/
def rowDots (w : FVec Ideal SW .f32) (g : FVec Ideal SG .f32) : FVec Ideal SP .f32 :=
  fun j => ∑ d : Fin 1024, w (ix2 (j 0) d) * g (ix2 (j 1) d)

/-- The host's softmax of a row along its long axis, operation by operation as both programs print it
    (the shape relations are the programs' stated side conditions, passed in). -/
def softmaxRow (hred : SP.ReducesTo [1] S1) (h0 : 0 < S0.numel)
    (hb0 : S0.BroadcastsInDim S1 (![] : Fin 0 → Fin S1.rank))
    (hb1 : S1.BroadcastsInDim S11 (![0] : Fin 1 → Fin S11.rank))
    (hb2 : S11.BroadcastsInDim SP (![0, 1] : Fin 2 → Fin SP.rank))
    (p : FVec Ideal SP .f32) : FVec Ideal SP .f32 :=
  Host.divf
    (Host.exp (subf p (broadcastInDim SP ![0, 1] hb2 (broadcastInDim S11 ![0] hb1
      (maximumf (broadcastInDim S1 ![] hb0 (constant (F := Ideal) S0 .f32 0xFF800000#32))
        (Host.reduce FloatOps.maximumf p (constant (F := Ideal) S0 .f32 0xFF800000#32) hred h0))))))
    (broadcastInDim SP ![0, 1] hb2 (broadcastInDim S11 ![0] hb1
      (Host.reduceAdd
        (Host.exp (subf p (broadcastInDim SP ![0, 1] hb2 (broadcastInDim S11 ![0] hb1
          (maximumf (broadcastInDim S1 ![] hb0 (constant (F := Ideal) S0 .f32 0xFF800000#32))
            (Host.reduce FloatOps.maximumf p (constant (F := Ideal) S0 .f32 0xFF800000#32) hred h0))))))
        (constant (F := Ideal) S0 .f32 0x00000000#32) hred h0)))

end Cert.Spec

end
-- ==== Proof.ArrayValue.lean ====
/-
  From what each grid point writes back to the whole output rows.

  Point t of the 16-point grid loads rows 1024·t … 1024·t + 1023 of each table (block (t, 0)) and the whole
  weights (block (0, 0)), and writes columns 1024·t … 1024·t + 1023 of each output row (block (0, t)). Entry
  (0, r) of the block it writes is the dot product of the weights' row with row r of the loaded block, that is
  with row 1024·t + r of the table: exactly entry (0, 1024·t + r) of `rowDots w g`. So each written block is
  `rowDots w g` read through the block's rectangle; the sixteen blocks tile the row (column s lies in the block
  of point s / 1024), and the output array ends at `rowDots w g` whole.
-/
import proofs.«117682_j15719580304442_1_alg».proof.Proof.Gen.KernelIdeal.Frame
import proofs.«117682_j15719580304442_1_alg».proof.Proof.BlockValue
import proofs.«117682_j15719580304442_1_alg».proof.Proof.Spec
import Idealize.ShloMosaic.Lib.Pipeline.Value
import Idealize.ShloMosaic.Lib.ValueIdx

set_option maxRecDepth 16384

noncomputable section

open scoped BigOperators

namespace Cert.KernelIdeal.ArrayValue

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The printed index maps, decided over the grid: a table's block is (t, 0), the weights' is (0, 0), an output's is (0, t). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-! ## The first output row -/

/-- What point t writes back to the first output is `rowDots` of the first weights and table, read through its block. -/
theorem flushed4_eq (c : Dev nD) (t : Fin cfg0.N) :
    (dats m 0 c).flushed 4 t
      = ((cfg0.win 4).blk t).view.read (Elt Ideal) (rowDots (V m c main_arg2) (V m c main_arg0)) := by
  show (cfg0.win 4).cut (grid0.coords t) ((dats m 0 c).after 4 t) = _
  rw [after0_4]
  unfold out0_4
  rw [View.canon_unit_zero origin]
  simp only [View.ld_unit_zero (S := S1024x1024) origin, View.ld_unit_zero (S := S1x1024) origin]
  obtain ⟨e00, e01, e10, e11, e20, e21, e30, e31, e40, e41, e50, e51⟩ := idx_facts t
  funext j
  obtain ⟨a, r, rfl⟩ : ∃ (a : Fin 1) (r : Fin 1024), j = ix2 a r := ⟨j 0, j 1, eq_ix2 j⟩
  show k0_pay1 (F := Ideal) (iblk m c 0 t) (iblk m c 2 t) (ix2 a r)
    = rowDots (V m c main_arg2) (V m c main_arg0) (((cfg0.win 4).blk t).view.emb (ix2 a r))
  refine (BlockValue.pay1_apply (iblk m c 0 t) (iblk m c 2 t) a r).trans ?_
  unfold rowDots
  refine Finset.sum_congr rfl fun d _ => ?_
  have hw : iblk m c 2 t (ix2 a d)
      = V m c main_arg2 (ix2 ((((cfg0.win 4).blk t).view.emb (ix2 a r)) 0) d) := by
    show V m c main_arg2 (((cfg0.win 2).blk t).view.emb (ix2 a d)) = _
    refine congrArg (V m c main_arg2) ?_
    funext ax; apply Fin.ext
    match ax with
    | ⟨0, _⟩ => show win0_2.index t (0 : Fin 2) * 1 + 1 * a.val = win0_4.index t (0 : Fin 2) * 1 + 1 * a.val; omega
    | ⟨1, _⟩ => show win0_2.index t (1 : Fin 2) * 1024 + 1 * d.val = d.val; omega
  have hg : iblk m c 0 t (ix2 r d)
      = V m c main_arg0 (ix2 ((((cfg0.win 4).blk t).view.emb (ix2 a r)) 1) d) := by
    show V m c main_arg0 (((cfg0.win 0).blk t).view.emb (ix2 r d)) = _
    refine congrArg (V m c main_arg0) ?_
    funext ax; apply Fin.ext
    match ax with
    | ⟨0, _⟩ => show win0_0.index t (0 : Fin 2) * 1024 + 1 * r.val = win0_4.index t (1 : Fin 2) * 1024 + 1 * r.val; omega
    | ⟨1, _⟩ => show win0_0.index t (1 : Fin 2) * 1024 + 1 * d.val = d.val; omega
  exact congrArg₂ (· * ·) hw hg

/-- An index of the first output row is in point t's block iff each coordinate is in the block's range. -/
theorem mem_blk4 (t : Fin cfg0.N) (i : S1x16384.Idx) :
    i ∈ ((cfg0.win 4).blk t).view.set ↔ ∀ a : Fin 2, win0_4.index t a * S1x1024.size a ≤ (i a).val
      ∧ (i a).val < win0_4.index t a * S1x1024.size a + S1x1024.size a := by
  show i ∈ ((View.whole main_v0_0).slice (win0_4.rect t)).set ↔ _
  rw [View.set_slice_whole, Rect.mem_set_unit]
  exact Iff.rfl

/-- Every column of the first output row lies in some point's block: column s in that of point s / 1024. -/
theorem cover4 (i : S1x16384.Idx) :
    ∃ t : Fin cfg0.N, (cfg0.win 4).flush t = true ∧ i ∈ ((cfg0.win 4).blk t).view.set := by
  have hi0 : (i 0).val < 1 := (i 0).isLt
  have hi1 : (i 1).val < 16384 := (i 1).isLt
  obtain ⟨t, ht⟩ : ∃ t : Fin cfg0.N, t.val = (i 1).val / 1024 :=
    ⟨⟨(i 1).val / 1024, by show (i 1).val / 1024 < 16; omega⟩, rfl⟩
  obtain ⟨e00, e01, e10, e11, e20, e21, e30, e31, e40, e41, e50, e51⟩ := idx_facts t
  refine ⟨t, flush0_4 t, ?_⟩
  rw [mem_blk4]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 1024 ≤ (i 1).val ∧ (i 1).val < win0_4.index t (1 : Fin 2) * 1024 + 1024; omega

/-- The first output array after the region: the row of dot products of the first weights with the first table. -/
theorem final4 (c : Dev nD) :
    (dats m 0 c).arrAt 4 cfg0.N
      = rowDots (m ((c : Thread nD τ).loc main_arg2)) (m ((c : Thread nD τ).loc main_arg0)) :=
  (dats m 0 c).arrAt_eq_of_cover 4 (rowDots (V m c main_arg2) (V m c main_arg0))
    (fun t _ => flushed4_eq m c t) cover4

/-! ## The second output row -/

/-- What point t writes back to the second output is `rowDots` of the second weights and table, read through its block. -/
theorem flushed5_eq (c : Dev nD) (t : Fin cfg0.N) :
    (dats m 0 c).flushed 5 t
      = ((cfg0.win 5).blk t).view.read (Elt Ideal) (rowDots (V m c main_arg3) (V m c main_arg1)) := by
  show (cfg0.win 5).cut (grid0.coords t) ((dats m 0 c).after 5 t) = _
  rw [after0_5]
  unfold out0_5
  rw [View.canon_unit_zero origin]
  simp only [View.ld_unit_zero (S := S1024x1024) origin, View.ld_unit_zero (S := S1x1024) origin]
  obtain ⟨e00, e01, e10, e11, e20, e21, e30, e31, e40, e41, e50, e51⟩ := idx_facts t
  funext j
  obtain ⟨a, r, rfl⟩ : ∃ (a : Fin 1) (r : Fin 1024), j = ix2 a r := ⟨j 0, j 1, eq_ix2 j⟩
  show k0_pay2 (F := Ideal) (iblk m c 1 t) (iblk m c 3 t) (ix2 a r)
    = rowDots (V m c main_arg3) (V m c main_arg1) (((cfg0.win 5).blk t).view.emb (ix2 a r))
  refine (BlockValue.pay2_apply (iblk m c 1 t) (iblk m c 3 t) a r).trans ?_
  unfold rowDots
  refine Finset.sum_congr rfl fun d _ => ?_
  have hw : iblk m c 3 t (ix2 a d)
      = V m c main_arg3 (ix2 ((((cfg0.win 5).blk t).view.emb (ix2 a r)) 0) d) := by
    show V m c main_arg3 (((cfg0.win 3).blk t).view.emb (ix2 a d)) = _
    refine congrArg (V m c main_arg3) ?_
    funext ax; apply Fin.ext
    match ax with
    | ⟨0, _⟩ => show win0_3.index t (0 : Fin 2) * 1 + 1 * a.val = win0_5.index t (0 : Fin 2) * 1 + 1 * a.val; omega
    | ⟨1, _⟩ => show win0_3.index t (1 : Fin 2) * 1024 + 1 * d.val = d.val; omega
  have hg : iblk m c 1 t (ix2 r d)
      = V m c main_arg1 (ix2 ((((cfg0.win 5).blk t).view.emb (ix2 a r)) 1) d) := by
    show V m c main_arg1 (((cfg0.win 1).blk t).view.emb (ix2 r d)) = _
    refine congrArg (V m c main_arg1) ?_
    funext ax; apply Fin.ext
    match ax with
    | ⟨0, _⟩ => show win0_1.index t (0 : Fin 2) * 1024 + 1 * r.val = win0_5.index t (1 : Fin 2) * 1024 + 1 * r.val; omega
    | ⟨1, _⟩ => show win0_1.index t (1 : Fin 2) * 1024 + 1 * d.val = d.val; omega
  exact congrArg₂ (· * ·) hw hg

/-- An index of the second output row is in point t's block iff each coordinate is in the block's range. -/
theorem mem_blk5 (t : Fin cfg0.N) (i : S1x16384.Idx) :
    i ∈ ((cfg0.win 5).blk t).view.set ↔ ∀ a : Fin 2, win0_5.index t a * S1x1024.size a ≤ (i a).val
      ∧ (i a).val < win0_5.index t a * S1x1024.size a + S1x1024.size a := by
  show i ∈ ((View.whole main_v0_1).slice (win0_5.rect t)).set ↔ _
  rw [View.set_slice_whole, Rect.mem_set_unit]
  exact Iff.rfl

/-- Every column of the second output row lies in some point's block: column s in that of point s / 1024. -/
theorem cover5 (i : S1x16384.Idx) :
    ∃ t : Fin cfg0.N, (cfg0.win 5).flush t = true ∧ i ∈ ((cfg0.win 5).blk t).view.set := by
  have hi0 : (i 0).val < 1 := (i 0).isLt
  have hi1 : (i 1).val < 16384 := (i 1).isLt
  obtain ⟨t, ht⟩ : ∃ t : Fin cfg0.N, t.val = (i 1).val / 1024 :=
    ⟨⟨(i 1).val / 1024, by show (i 1).val / 1024 < 16; omega⟩, rfl⟩
  obtain ⟨e00, e01, e10, e11, e20, e21, e30, e31, e40, e41, e50, e51⟩ := idx_facts t
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 1024 ≤ (i 1).val ∧ (i 1).val < win0_5.index t (1 : Fin 2) * 1024 + 1024; omega

/-- The second output array after the region: the row of dot products of the second weights with the second table. -/
theorem final5 (c : Dev nD) :
    (dats m 0 c).arrAt 5 cfg0.N
      = rowDots (m ((c : Thread nD τ).loc main_arg3)) (m ((c : Thread nD τ).loc main_arg1)) :=
  (dats m 0 c).arrAt_eq_of_cover 5 (rowDots (V m c main_arg3) (V m c main_arg1))
    (fun t _ => flushed5_eq m c t) cover5

end Cert.KernelIdeal.ArrayValue

end
-- ==== Proof.TailValue.lean ====
/-
  The kernel's program, read: each of its two results is the softmax of a row of dot products.

  After the one region the two output arrays hold the rows `rowDots w₁ g₁` and `rowDots w₂ g₂` (the region's
  sixteen write-backs tile each row). The host operations that follow are, for each row, the softmax chain
  `softmaxRow`: the running maximum against -∞, the subtraction, the exponential, the row sum and the quotient.
  They read the region's output array and write only buffers of their own, so each result is `softmaxRow` of
  the row the region left, and the four arguments end as they began.
-/
import proofs.«117682_j15719580304442_1_alg».proof.Proof.Gen.KernelIdeal.Frame
import proofs.«117682_j15719580304442_1_alg».proof.Proof.ArrayValue
import proofs.«117682_j15719580304442_1_alg».proof.Proof.Spec
import Idealize.ShloMosaic.Lib.StableHlo.Run

set_option maxRecDepth 16384

noncomputable section

namespace Cert.KernelIdeal.TailValue

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The softmax chain with the kernel program's own side conditions. -/
abbrev softmax (p : FVec Ideal S1x16384 .f32) : FVec Ideal S1x16384 .f32 :=
  softmaxRow Facts₀.reducesTo_S1x16384_S1_d1 Facts₀.h_S_ Facts₀.bcast_S_S1 Facts₀.bcast_S1_S1x1_0 Facts₀.bcast_S1x1_S1x16384_0_1 p

/-- The first result after the host operations: the softmax of the first output row. -/
theorem tail_first (c : Dev nD) :
    Pipeline.afterTail₀ cfgs (dats m) 0 (V0 m) [hostOps1] c main_v11
      = softmax (rowDots (m ((c : Thread nD τ).loc main_arg2)) (m ((c : Thread nD τ).loc main_arg0))) := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v0_0)
      = rowDots (m ((c : Thread nD τ).loc main_arg2)) (m ((c : Thread nD τ).loc main_arg0)) :=
    (Pipeline.withArrays_arr spec0 launch0.win.arr_inj c _ _ 4).trans (ArrayValue.final4 m c)
  exact congrArg softmax e

/-- The second result after the host operations: the softmax of the second output row. -/
theorem tail_second (c : Dev nD) :
    Pipeline.afterTail₀ cfgs (dats m) 0 (V0 m) [hostOps1] c main_v22
      = softmax (rowDots (m ((c : Thread nD τ).loc main_arg3)) (m ((c : Thread nD τ).loc main_arg1))) := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v0_1)
      = rowDots (m ((c : Thread nD τ).loc main_arg3)) (m ((c : Thread nD τ).loc main_arg1)) :=
    (Pipeline.withArrays_arr spec0 launch0.win.arr_inj c _ _ 5).trans (ArrayValue.final5 m c)
  exact congrArg softmax e

/-- The two result buffers are no array of the region and are not scoped: the run's post speaks of them. -/
theorem first_rest : main_v11 ∈ Pipeline.restRefs sig spec0 :=
  Pipeline.mem_restRefs_of main_v11 rfl (fun w => by fin_cases w <;> decide)
theorem second_rest : main_v22 ∈ Pipeline.restRefs sig spec0 :=
  Pipeline.mem_restRefs_of main_v22 rfl (fun w => by fin_cases w <;> decide)

/-- The kernel program's run, read: both results at the softmax of their row of dot products, the arguments unchanged. -/
theorem run : θ_run defs (onTc (τ := τ) (main (F := Ideal))) ⟨m, fun _ => 0, ρ⟩ fun r => ∀ c : Dev nD,
      r.2.mem ((c.tc : Thread nD τ).loc main_v11)
        = softmax (rowDots (m ((c.tc : Thread nD τ).loc main_arg2)) (m ((c.tc : Thread nD τ).loc main_arg0)))
      ∧ r.2.mem ((c.tc : Thread nD τ).loc main_v22)
        = softmax (rowDots (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v11 first_rest).trans (tail_first m c),
       ((h c).2 main_v22 second_rest).trans (tail_second m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c)))⟩)
    (run_main m ρ)

end Cert.KernelIdeal.TailValue

end
-- ==== Proof.RefValue.lean ====
/-
  The reference, read: each of its two results is the softmax of a row of dot products.

  Its first operation is the host's matrix product of the 1×1024 weights with the 16384×1024 table, both
  contracted on their last axis; read at entry (0, s) it is Σ_d w(0, d) · g(s, d), the row `rowDots w g`.
  The remaining operations are the softmax chain `softmaxRow`, applied to that row.
-/
import proofs.«117682_j15719580304442_1_alg».proof.Proof.Gen.ReferenceIdeal.Run
import proofs.«117682_j15719580304442_1_alg».proof.Proof.Gen.ReferenceIdeal.Read
import proofs.«117682_j15719580304442_1_alg».proof.Proof.Spec

noncomputable section

open scoped BigOperators

namespace Cert.ReferenceIdeal.RefValue

open Cert.ReferenceIdeal Cert.ReferenceIdeal.Gen Cert.Spec
open Idealize.ShloMosaic Idealize.ShloMosaic.TcCoe Idealize.SL.Sem Idealize.ShloMosaic.ValueIdx

/-- The reference's matrix product is the row of dot products. -/
theorem dot_eq (w : FVec Ideal S1x1024 .f32) (g : FVec Ideal S16384x1024 .f32) :
    Host.dotGeneral (F := Ideal) dot_S1x1024_S16384x1024_S1x16384_1_1_0_0_n_n none w g = rowDots w g := by
  funext i
  refine (Read.val_main_v0_apply g w i).trans ?_
  unfold rowDots
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 (i 1) k :=
    funext fun a => Fin.ext (by match a with | ⟨0, _⟩ => rfl | ⟨1, _⟩ => rfl)
  exact congrArg₂ (· * ·) (congrArg w el) (congrArg g er)

/-- The softmax chain with the reference's own side conditions. -/
abbrev softmax (p : FVec Ideal S1x16384 .f32) : FVec Ideal S1x16384 .f32 :=
  softmaxRow Facts₀.reducesTo_S1x16384_S1_d1 Facts₀.h_S_ Facts₀.bcast_S_S1 Facts₀.bcast_S1_S1x1_0 Facts₀.bcast_S1x1_S1x16384_0_1 p

/-- The reference's run, read: the first result is the softmax of the row of dot products of the first weights
    with the first table, the second that of the second pair; the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
        = softmax (rowDots (m ((c.tc : Thread nD τ).loc main_arg2)) (m ((c.tc : Thread nD τ).loc main_arg0)))
      ∧ r.2.mem ((c.tc : Thread nD τ).loc main_v23)
        = softmax (rowDots (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans (congrArg softmax (dot_eq (m ((c.tc : Thread nD τ).loc main_arg2)) (m ((c.tc : Thread nD τ).loc main_arg0)))),
       (h c).2.1.trans (congrArg softmax (dot_eq (m ((c.tc : Thread nD τ).loc main_arg3)) (m ((c.tc : Thread nD τ).loc main_arg1)))),
       (h c).2.2⟩)
    (Cert.ReferenceIdeal.Value.run (F := Ideal) m ρ)

end Cert.ReferenceIdeal.RefValue

end
-- ==== Proof.lean ====
/-
  Two matrix–vector products and a softmax, tiled over rows, against the same computation written whole.

  The kernel program computes, for each of two (weights, table) pairs, the row p(0, s) = Σ_{d < 1024} w(0, d) · g(s, d),
  s < 16384, in sixteen blocks of 1024 consecutive s: grid point t loads rows 1024·t … 1024·t + 1023 of the table,
  changes them and the weights to bf16 (the identity on extended reals), multiplies weights by block contracting both
  on their last axis into a zero accumulator, and writes columns 1024·t … of the output row. On the host it then takes
  the softmax of each row: subtract the maximum, exponentiate, divide by the row's sum. The reference computes the
  same two rows as ONE matrix product each (same contraction over all 1024 columns, so the very same finite sum, term
  by term) and applies the same softmax chain, operation for operation and literal for literal.

  So at the ideal values the two programs' results are one function of the arguments: `softmaxRow (rowDots w g)`.
  No property of the entries is used: the kernel's block sums are over the whole contracted axis (no regrouping of a
  sum), and 0 + x = x for every extended real x. The precondition is never opened.

  The three frames are the generated ones (the reference's is its generated run with the results dropped); the ideal
  pass rewrote nothing, so the kernel program at the ideal values is its own idealization.
-/
import proofs.«117682_j15719580304442_1_alg».proof.Defs
import proofs.«117682_j15719580304442_1_alg».proof.Proof.Gen.Kernel
import proofs.«117682_j15719580304442_1_alg».proof.Proof.Gen.Kernel.Skeleton
import proofs.«117682_j15719580304442_1_alg».proof.Proof.Gen.Kernel.Launch
import proofs.«117682_j15719580304442_1_alg».proof.Proof.Gen.Kernel.Points
import proofs.«117682_j15719580304442_1_alg».proof.Proof.Gen.Kernel.Frame
import proofs.«117682_j15719580304442_1_alg».proof.Proof.Gen.KernelIdeal
import proofs.«117682_j15719580304442_1_alg».proof.Proof.Gen.KernelIdeal.Skeleton
import proofs.«117682_j15719580304442_1_alg».proof.Proof.Gen.KernelIdeal.Launch
import proofs.«117682_j15719580304442_1_alg».proof.Proof.Gen.KernelIdeal.Points
import proofs.«117682_j15719580304442_1_alg».proof.Proof.Gen.KernelIdeal.Frame
import proofs.«117682_j15719580304442_1_alg».proof.Proof.Gen.ReferenceIdeal
import proofs.«117682_j15719580304442_1_alg».proof.Proof.Gen.ReferenceIdeal.Run
import proofs.«117682_j15719580304442_1_alg».proof.Proof.Gen.ReferenceIdeal.Read
import proofs.«117682_j15719580304442_1_alg».proof.Proof.Gen.Pre_finite_inputs
import proofs.«117682_j15719580304442_1_alg».proof.Proof.TailValue
import proofs.«117682_j15719580304442_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and keeps its arguments. -/
theorem frame_kernel : Cert.frame_Kernel := fun m ρ _ => Cert.Kernel.Gen.frame m ρ

/-- So does the kernel program at the ideal values. -/
theorem frame_kernelIdeal : Cert.frame_KernelIdeal := fun m ρ _ => Cert.KernelIdeal.Gen.frame m ρ

/-- The reference is a straight line of host operations: it runs, and its arguments end unchanged. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to state. -/
theorem preserves : Cert.preserves_Kernel_KernelIdeal := trivial

/-- From memories that agree on the four arguments both programs end with each result at the softmax of the row of
    dot products of its weights with its table: the kernel's rows assembled from sixteen blocks, the reference's
    computed whole, the softmax chain the same on both sides. -/
theorem algebraic : Cert.algebraic_KernelIdeal_ReferenceIdeal := by
  intro m ρ m' ρ' _ hagree
  refine ⟨_, _, Cert.KernelIdeal.TailValue.run m ρ, ?_⟩
  refine (θ_run Cert.ReferenceIdeal.defs _ _).mono (fun _ h c => ⟨(h c).1.trans ?_, (h c).2.1.trans ?_, (h c).2.2⟩)
    (Cert.ReferenceIdeal.RefValue.run m' ρ')
  · rw [(hagree c).1, (hagree c).2.2.1]
  · rw [(hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
